-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .bf16⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BodyBits.lean ====
/-
  The similarity kernel's body at one grid point, and the pipeline's proof data.

  The grid is 8 × 8 points. At point (i, j) the body reads row block i of the bf16 features (window 0),
  row block j of the SAME array (window 1), the column block i of the squared norms (window 2) and the
  row block j of the squared norms (window 3), and stores the 1024 × 1024 block (i, j) of the result
  (window 4). Windows 0 and 1 read one array, so each holds it at half the full share; nothing writes it.
  What the output's staging buffer holds after the body is the body's one payload over the four input blocks.
-/
import proofs.«104631_j32658931319006_1_alg».proof.Proof.Gen.Kernel.Launch
import proofs.«104631_j32658931319006_1_alg».proof.Proof.Gen.Kernel.Skeleton
import proofs.«104631_j32658931319006_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations
    (the bf16 copy of the features, their squares, the row sums and the two reshapes of the sums). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched,
    the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S1024x128 := Rect.unit (s := S1024x128) ![0, 0] S1024x128.size inb_S1024x128_S1024x128_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

/-- The output block after the body: its one store, the payload over the four input blocks read whole. -/
def outBlk (x0 : Vec F S1024x128 .bf16) (x1 : Vec F S1024x128 .bf16) (x2 : Vec F S1024x1 .f32) (x3 : Vec F S1x1024 .f32) : Vec F S1024x1024 .f32 :=
  View.canon [⟨rO, k0_pay1 (View.ld x0 rA) (View.ld x1 rA) (View.ld x2 rC) (View.ld x3 rR)⟩]

/-- The one store covers the block. -/
theorem outCover (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 1000000 in
/-- On whole staging memrefs, the inputs' at contents `xW` and the output's at anything, the body runs to the
    continuation with the inputs' as they were and the output's at `outBlk` of them. -/
theorem sound_kernel (c : Dev nD) (E : Set ℕ) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x128 .bf16) (x1 : Vec F S1024x128 .bf16) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The arrays as the region finds them; after the body at point `t` each input's buffer at its block and the
    output's at `outBlk` of the input blocks; nothing carried between points (the invariant is the core's scratch, at anything), nothing owed. The two windows on the
    bf16 features hold that array at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunBits.lean ====
/-
  The similarity kernel's run: @main's host operations, then the 64 grid points, then the return.

  The launch hands the pipeline each array behind a window whole. The bf16 features stand behind two windows, so
  their full share is cut in its two halves, one per window; the squared norms' two reshapes and the result stand
  behind one window each. Every other buffer of the core bypasses the region and is read back unchanged.
-/
import proofs.«104631_j32658931319006_1_alg».proof.Proof.BodyBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows, whole, are the windows' arrays at their shares: the bf16 features' full share
    is the two halves the two windows on it hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v3, main_v4, main_v5] (by decide) (by decide), bigSep_W0]
  rw [(arr_whole0 0).set_eq_univ, (arr_whole0 2).set_eq_univ, (arr_whole0 3).set_eq_univ, (arr_whole0 4).set_eq_univ]
  show iprop((c.tc.loc main_v0 ↦{fullShare} V m c main_v0) ∗ (c.tc.loc main_v3 ↦{fullShare} V m c main_v3)
      ∗ (c.tc.loc main_v4 ↦{fullShare} V m c main_v4) ∗ (c.tc.loc main_v5 ↦{fullShare} V m c main_v5))
    ⊢ iprop((c.tc.loc main_v0 ↦{fullShare.left} V m c main_v0) ∗ (c.tc.loc main_v0 ↦{fullShare.right} V m c main_v0)
      ∗ (c.tc.loc main_v3 ↦{fullShare} V m c main_v3) ∗ (c.tc.loc main_v4 ↦{fullShare} V m c main_v4) ∗ (c.tc.loc main_v5 ↦{fullShare} V m c main_v5))
  iintro ⟨H0, H3, H4, H5⟩
  ihave H0' := ((pointsTo_share (PosShare.mem_left_op_right fullShare)).1) $$ H0
  icases H0' with ⟨Ha, Hb⟩
  isplitl [Ha]; · iexact Ha
  isplitl [Hb]; · iexact Hb
  isplitl [H3]; · iexact H3
  isplitl [H4]; · iexact H4
  iexact H5

/-- The invariant is the core's scratch at anything, at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- From any memory with zero counters every weakly fair execution of @main terminates, and in every final state
    each window's array holds what the write-backs leave (an input its entry contents, the result the 64 blocks the
    body left) and every other unscoped buffer what the region found. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [Φ_eq]; iintro ⟨-, H⟩; iexact H)
    (hout := fun c => by
      rw [Φ_eq]; iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the argument array ends as launched (no window stages it, no host operation writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (by decide))).trans (V_main_arg0 m c))
    (run_main m ρ)

end Cert.Kernel.Hand

end
-- ==== Proof.BodyIdeal.lean ====
/-
  The similarity kernel's body at one grid point, and the pipeline's proof data.

  The grid is 8 × 8 points. At point (i, j) the body reads row block i of the bf16 features (window 0),
  row block j of the SAME array (window 1), the column block i of the squared norms (window 2) and the
  row block j of the squared norms (window 3), and stores the 1024 × 1024 block (i, j) of the result
  (window 4). Windows 0 and 1 read one array, so each holds it at half the full share; nothing writes it.
  What the output's staging buffer holds after the body is the body's one payload over the four input blocks.
-/
import proofs.«104631_j32658931319006_1_alg».proof.Proof.Gen.KernelIdeal.Launch
import proofs.«104631_j32658931319006_1_alg».proof.Proof.Gen.KernelIdeal.Skeleton
import proofs.«104631_j32658931319006_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations
    (the bf16 copy of the features, their squares, the row sums and the two reshapes of the sums). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched,
    the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S1024x128 := Rect.unit (s := S1024x128) ![0, 0] S1024x128.size inb_S1024x128_S1024x128_0_0
abbrev rC : Rect S1024x1 := Rect.unit (s := S1024x1) ![0, 0] S1024x1.size inb_S1024x1_S1024x1_0_0
abbrev rR : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

/-- The output block after the body: its one store, the payload over the four input blocks read whole. -/
def outBlk (x0 : Vec F S1024x128 .bf16) (x1 : Vec F S1024x128 .bf16) (x2 : Vec F S1024x1 .f32) (x3 : Vec F S1x1024 .f32) : Vec F S1024x1024 .f32 :=
  View.canon [⟨rO, k0_pay1 (View.ld x0 rA) (View.ld x1 rA) (View.ld x2 rC) (View.ld x3 rR)⟩]

/-- The one store covers the block. -/
theorem outCover (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 1000000 in
/-- On whole staging memrefs, the inputs' at contents `xW` and the output's at anything, the body runs to the
    continuation with the inputs' as they were and the output's at `outBlk` of them. -/
theorem sound_kernel (c : Dev nD) (E : Set ℕ) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x128 .bf16) (x1 : Vec F S1024x128 .bf16) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The arrays as the region finds them; after the body at point `t` each input's buffer at its block and the
    output's at `outBlk` of the input blocks; nothing carried between points (the invariant is the core's scratch, at anything), nothing owed. The two windows on the
    bf16 features hold that array at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunIdeal.lean ====
/-
  The similarity kernel's run: @main's host operations, then the 64 grid points, then the return.

  The launch hands the pipeline each array behind a window whole. The bf16 features stand behind two windows, so
  their full share is cut in its two halves, one per window; the squared norms' two reshapes and the result stand
  behind one window each. Every other buffer of the core bypasses the region and is read back unchanged.
-/
import proofs.«104631_j32658931319006_1_alg».proof.Proof.BodyIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows, whole, are the windows' arrays at their shares: the bf16 features' full share
    is the two halves the two windows on it hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v3, main_v4, main_v5] (by decide) (by decide), bigSep_W0]
  rw [(arr_whole0 0).set_eq_univ, (arr_whole0 2).set_eq_univ, (arr_whole0 3).set_eq_univ, (arr_whole0 4).set_eq_univ]
  show iprop((c.tc.loc main_v0 ↦{fullShare} V m c main_v0) ∗ (c.tc.loc main_v3 ↦{fullShare} V m c main_v3)
      ∗ (c.tc.loc main_v4 ↦{fullShare} V m c main_v4) ∗ (c.tc.loc main_v5 ↦{fullShare} V m c main_v5))
    ⊢ iprop((c.tc.loc main_v0 ↦{fullShare.left} V m c main_v0) ∗ (c.tc.loc main_v0 ↦{fullShare.right} V m c main_v0)
      ∗ (c.tc.loc main_v3 ↦{fullShare} V m c main_v3) ∗ (c.tc.loc main_v4 ↦{fullShare} V m c main_v4) ∗ (c.tc.loc main_v5 ↦{fullShare} V m c main_v5))
  iintro ⟨H0, H3, H4, H5⟩
  ihave H0' := ((pointsTo_share (PosShare.mem_left_op_right fullShare)).1) $$ H0
  icases H0' with ⟨Ha, Hb⟩
  isplitl [Ha]; · iexact Ha
  isplitl [Hb]; · iexact Hb
  isplitl [H3]; · iexact H3
  isplitl [H4]; · iexact H4
  iexact H5

/-- The invariant is the core's scratch at anything, at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- From any memory with zero counters every weakly fair execution of @main terminates, and in every final state
    each window's array holds what the write-backs leave (an input its entry contents, the result the 64 blocks the
    body left) and every other unscoped buffer what the region found. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [Φ_eq]; iintro ⟨-, H⟩; iexact H)
    (hout := fun c => by
      rw [Φ_eq]; iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the argument array ends as launched (no window stages it, no host operation writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (by decide))).trans (V_main_arg0 m c))
    (run_main m ρ)

end Cert.KernelIdeal.Hand

end
-- ==== Proof.Spec.lean ====
/-
  The function both programs compute, over the extended reals.

  For features f : [8192, 128] the result at (r, s) is  −sqrt(max(‖f_r‖² + ‖f_s‖² − 2·⟨f_r, f_s⟩, 0)):
  the negated Euclidean distance of rows r and s through the expansion of the squared distance, clamped at zero.
  ‖f_r‖² is the zero word plus the sum of the 128 squares; the two literals are kept as their words.
-/
import Idealize.ShloMosaic.PureOps.Ideal
import Idealize.ShloMosaic.PureOps.Ideal.Laws
import Idealize.ShloMosaic.Lib.ValueIdx

noncomputable section

namespace Cert.Sim

open Idealize.ShloMosaic Idealize.ShloMosaic.ValueIdx

abbrev SFeat : Shape := ⟨2, ![8192, 128]⟩
abbrev SOut : Shape := ⟨2, ![8192, 8192]⟩

/-- The word of 0.0. -/
def zeroW : EReal := Ideal.ofBits .f32 0x00000000#32
/-- The word of 2.0. -/
def twoW : EReal := Ideal.ofBits .f32 0x40000000#32

/-- ‖f_r‖², summed from the zero word. -/
def sqn (f : SFeat.Idx → EReal) (r : Fin 8192) : EReal := zeroW + ∑ k : Fin 128, f (ix2 r k) * f (ix2 r k)

/-- ⟨f_r, f_s⟩. -/
def gram (f : SFeat.Idx → EReal) (r s : Fin 8192) : EReal := ∑ k : Fin 128, f (ix2 r k) * f (ix2 s k)

/-- max(‖f_r‖² + ‖f_s‖² − 2⟨f_r, f_s⟩, 0), the clamped squared distance. -/
def sqDist (f : SFeat.Idx → EReal) (r s : Fin 8192) : EReal := max ((sqn f r + sqn f s) - twoW * gram f r s) zeroW

/-- The result: the negated distance of rows `i 0` and `i 1`. -/
def G (f : SFeat.Idx → EReal) : SOut.Idx → EReal := fun i => -(Ideal.sqrt (sqDist f (i 0) (i 1)))

/-- Zero minus x is −x on the extended reals (no finiteness needed: 0 + (−x) = −x everywhere). -/
theorem zeroW_sub (x : EReal) : zeroW - x = -x := by
  unfold zeroW
  rw [Ideal.ofBits_zero_f32, sub_eq_add_neg, zero_add]

theorem sqDist_congr (f : SFeat.Idx → EReal) {r r' s s' : Fin 8192} (hr : r.val = r'.val) (hs : s.val = s'.val) :
    sqDist f r s = sqDist f r' s' := by
  obtain rfl := Fin.ext hr; obtain rfl := Fin.ext hs; rfl

end Cert.Sim

end
-- ==== Proof.KHost.lean ====
/-
  What the region finds in the three arrays the host operations wrote, at the ideal instance: the bf16 copy of
  the features IS the features (a change of format is the identity on the extended reals), and the column and the
  row of squared norms hold ‖f_r‖² at r.
-/
import proofs.«104631_j32658931319006_1_alg».proof.Proof.RunIdeal
import proofs.«104631_j32658931319006_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.Sim.Ker

open Cert.KernelIdeal Cert.KernelIdeal.Gen Cert.KernelIdeal.Hand Idealize.ShloMosaic Idealize.ShloMosaic.TcCoe Idealize.SL.Sem Idealize.ShloMosaic.ValueIdx Cert.Sim

variable (m : (ℓ : Loc nD τ sig) → Buf (Elt Ideal) ℓ)

/-- The features as launched on core `c`. -/
abbrev feat (c : Dev nD) : FVec Ideal S8192x128 .f32 := m ((c : Thread nD τ).loc main_arg0)

/-- The row sums of the squares, as @main's fourth operation leaves them. -/
abbrev rowSums (c : Dev nD) : FVec Ideal S8192 .f32 :=
  Host.reduceAdd (F := Ideal) (mulf (feat m c) (feat m c)) (constant S_ .f32 0x00000000#32) reducesTo_S8192x128_S8192_d1 h_S_

theorem V_v0 (c : Dev nD) : (V m c main_v0 : S8192x128.Idx → EReal) = truncf .bf16 (feat m c) bitsLt_bf16_f32 := by
  dsimp only [V, hostOps0]; after_results

theorem V_v3 (c : Dev nD) : (V m c main_v3 : S8192x1.Idx → EReal) = shapeCast S8192x1 (rowSums m c) shapeCasts_S8192_S8192x1 := by
  dsimp only [V, hostOps0]; after_results; rfl

theorem V_v4 (c : Dev nD) : (V m c main_v4 : S1x8192.Idx → EReal) = shapeCast S1x8192 (rowSums m c) shapeCasts_S8192_S1x8192 := by
  dsimp only [V, hostOps0]; after_results; rfl

/-- A row sum from the zero word is that word plus the sum over the row. -/
theorem rowSum_apply (y : FVec Ideal S8192x128 .f32) (r : Fin 8192) :
    Host.reduceAdd (F := Ideal) y (constant S_ .f32 0x00000000#32) reducesTo_S8192x128_S8192_d1 h_S_ (ix1 r)
      = zeroW + ∑ k : Fin 128, y (ix2 r k) := by
  simp only [Host.reduceAdd, Ideal.hostReduceAdd_def]
  rw [Ideal.hostReduceAdd_single reducesTo_S8192x128_S8192_d1 (by decide)]
  refine congrArg (_ + ·) (Finset.sum_congr rfl fun k _ => ?_)
  exact congrArg y (funext fun a => Fin.ext (by match a with | ⟨0, _⟩ => rfl | ⟨1, _⟩ => rfl))

/-- The row sums hold ‖f_r‖² at r. -/
theorem rowSums_apply (c : Dev nD) (r : Fin 8192) : rowSums m c (ix1 r) = sqn (feat m c) r := by
  unfold rowSums
  rw [rowSum_apply]
  rfl

/-- The bf16 copy read at an index is the feature there. -/
theorem v0_apply (c : Dev nD) (j : S8192x128.Idx) : V m c main_v0 j = feat m c j := by
  rw [V_v0]; rfl

/-- The column of squared norms at row r. -/
theorem v3_apply (c : Dev nD) (r : Fin 8192) : V m c main_v3 (ix2 r 0) = sqn (feat m c) r := by
  rw [V_v3, shapeCast_apply (rowSums m c) shapeCasts_S8192_S8192x1 (ix2 r 0) (ix1 r)
    (by rw [Shape.rowMajor_val_one, Shape.rowMajor_val_two]; show r.val = r.val * 1 + 0; omega)]
  exact rowSums_apply m c r

/-- The row of squared norms at column s. -/
theorem v4_apply (c : Dev nD) (s : Fin 8192) : V m c main_v4 (ix2 0 s) = sqn (feat m c) s := by
  rw [V_v4, shapeCast_apply (rowSums m c) shapeCasts_S8192_S1x8192 (ix2 0 s) (ix1 s)
    (by rw [Shape.rowMajor_val_one, Shape.rowMajor_val_two]; show s.val = 0 * 8192 + s.val; omega)]
  exact rowSums_apply m c s

end Cert.Sim.Ker

end
-- ==== Proof.KPay.lean ====
/-
  The body's one payload at an index of the block: at (p, q) it is
  0 − sqrt(max((c_p + r_q) − 2·Σ_k a_pk·b_qk, 0)) for the loaded blocks a, b (rows of features), c (a column
  of squared norms) and r (a row of squared norms).
-/
import proofs.«104631_j32658931319006_1_alg».proof.Proof.Gen.KernelIdeal.Skeleton
import proofs.«104631_j32658931319006_1_alg».proof.Proof.Spec
import Idealize.ShloMosaic.Lib.Pipeline.Value
import Idealize.ShloMosaic.Lib.ValueIdx
import Idealize.ShloMosaic.PureOps.Ideal.Laws

noncomputable section

namespace Cert.Sim.Ker

open Cert.KernelIdeal Cert.KernelIdeal.Gen Idealize.ShloMosaic Idealize.ShloMosaic.ValueIdx Cert.Sim

/-- The column of squared norms broadcast along the rows reads its p-th entry. -/
theorem bcol (v : FVec Ideal S1024x1 .f32) (p q : Fin 1024) :
    broadcastTo S1024x1024 v broadcasts_S1024x1_S1024x1024 (ix2 p q) = v (ix2 p 0) :=
  broadcastTo_apply v broadcasts_S1024x1_S1024x1024 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The row of squared norms broadcast along the columns reads its q-th entry. -/
theorem brow (v : FVec Ideal S1x1024 .f32) (p q : Fin 1024) :
    broadcastTo S1024x1024 v broadcasts_S1x1024_S1024x1024 (ix2 p q) = v (ix2 0 q) :=
  broadcastTo_apply v broadcasts_S1x1024_S1024x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! The product's operand indices, axis by axis: the output's row indexes the left block's row, its column the right
    block's row, and both blocks are contracted along their 128 features. -/

theorem lhs_ax0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_ax1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_ax0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_ax1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product into the zero block at (p, q) is Σ_k a_pk · b_qk. -/
theorem mm_apply (a b : FVec Ideal S1024x128 .bf16) (p q : Fin 1024) :
    matmul dot_S1024x128_S1024x128_S1024x1024_1_1_0_0_n_n none a b (constant S1024x1024 .f32 0x00000000#32) (ix2 p q) = ∑ k : Fin 128, a (ix2 p k) * b (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact lhs_ax0 _ _
    | ⟨1, _⟩ => exact (lhs_ax1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact rhs_ax0 _ _
    | ⟨1, _⟩ => exact (rhs_ax1 _ _).trans hk)
  rw [el, er]

theorem pay_apply (x0 x1 : FVec Ideal S1024x128 .bf16) (x2 : FVec Ideal S1024x1 .f32) (x3 : FVec Ideal S1x1024 .f32) (p q : Fin 1024) :
    k0_pay1 (F := Ideal) x0 x1 x2 x3 (ix2 p q)
      = zeroW - Ideal.sqrt (max ((x2 (ix2 p 0) + x3 (ix2 0 q)) - twoW * ∑ k : Fin 128, x0 (ix2 p k) * x1 (ix2 q k)) zeroW) := by
  unfold k0_pay1
  simp only [shapeCast_self]
  have eM := mm_apply x0 x1 p q
  have eC := bcol x2 p q
  have eR := brow x3 p q
  generalize matmul (F := Ideal) dot_S1024x128_S1024x128_S1024x1024_1_1_0_0_n_n none x0 x1 (constant S1024x1024 .f32 0x00000000#32) = M at eM ⊢
  generalize broadcastTo S1024x1024 x2 broadcasts_S1024x1_S1024x1024 = C at eC ⊢
  generalize broadcastTo S1024x1024 x3 broadcasts_S1x1024_S1024x1024 = R at eR ⊢
  show (Ideal.ofBits .f32 0x00000000#32 : EReal)
      - Ideal.sqrt (max ((C (ix2 p q) + R (ix2 p q)) - Ideal.ofBits .f32 0x40000000#32 * M (ix2 p q)) (Ideal.ofBits .f32 0x00000000#32)) = _
  rw [eM, eC, eR]
  rfl

/-- One entry of one block: if the loaded blocks are rows `r0 + ·` and `s0 + ·` of the features and the squared norms
    of those rows, the payload at (p, q) is the result at (r0 + p, s0 + q). Zero minus the root is the negated root. -/
theorem block_eq (f : FVec Ideal S8192x128 .f32)
    (x0 x1 : FVec Ideal S1024x128 .bf16) (x2 : FVec Ideal S1024x1 .f32) (x3 : FVec Ideal S1x1024 .f32)
    (r0 s0 : Nat) (p q : Fin 1024) (hr : r0 + p.val < 8192) (hs : s0 + q.val < 8192)
    (h0 : ∀ k : Fin 128, x0 (ix2 p k) = f (ix2 ⟨r0 + p.val, hr⟩ k))
    (h1 : ∀ k : Fin 128, x1 (ix2 q k) = f (ix2 ⟨s0 + q.val, hs⟩ k))
    (h2 : x2 (ix2 p 0) = sqn f ⟨r0 + p.val, hr⟩)
    (h3 : x3 (ix2 0 q) = sqn f ⟨s0 + q.val, hs⟩) :
    k0_pay1 (F := Ideal) x0 x1 x2 x3 (ix2 p q) = G f (ix2 ⟨r0 + p.val, hr⟩ ⟨s0 + q.val, hs⟩) := by
  rw [pay_apply, zeroW_sub, h2, h3]
  unfold G sqDist gram
  simp only [h0, h1]

end Cert.Sim.Ker

end
-- ==== Proof.KFinal.lean ====
/-
  The result array after the run is G of the features.

  Point t = (i, j) of the 8 × 8 grid writes back block (i, j) of the result. Its four input blocks are rows
  1024·i + · and 1024·j + · of the features and the squared norms of those rows, so what it writes is block (i, j)
  of G; the 64 blocks tile the 8192 × 8192 result.
-/
import proofs.«104631_j32658931319006_1_alg».proof.Proof.KHost
import proofs.«104631_j32658931319006_1_alg».proof.Proof.KPay

set_option maxRecDepth 16384

noncomputable section

namespace Cert.Sim.Ker

open Cert.KernelIdeal Cert.KernelIdeal.Gen Cert.KernelIdeal.Hand Idealize.ShloMosaic Idealize.ShloMosaic.TcCoe Idealize.SL.Sem Idealize.ShloMosaic.ValueIdx Cert.Sim
open Idealize.ShloMosaic.Pipeline (Dat)

variable (m : (ℓ : Loc nD τ sig) → Buf (Elt Ideal) ℓ) (ρ : Dev nD → PrngReg)

theorem offs_zero : (![0, 0] : Fin 2 → Nat) = fun _ => 0 := funext fun a => by fin_cases a <;> rfl

/-- The index maps over the grid: the first features window and the norms' column move with the result's row block,
    the second features window and the norms' row with its column block; the block indices stay below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the result is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- What point `t` writes back is block `t` of G of the features. -/
theorem flushed_eq (c : Dev nD) (t : Fin cfg0.N) :
    (dats m 0 c).flushed 4 t = ((cfg0.win 4).blk t).view.read (Elt Ideal) (G (feat m c)) := by
  show (cfg0.win 4).cut (grid0.coords t) ((dats m 0 c).after 4 t) = _
  rw [after0_4]
  unfold outBlk
  rw [View.canon_unit_zero offs_zero]
  simp only [View.ld_unit_zero (S := S1024x128) offs_zero, View.ld_unit_zero (S := S1024x1) offs_zero, View.ld_unit_zero (S := S1x1024) offs_zero]
  obtain ⟨e00, e01, e10, e11, e20, e21, e30, e31, b0, b1⟩ := idx_facts t
  funext j
  obtain ⟨p, q, rfl⟩ : ∃ (p q : Fin 1024), j = ix2 p q := ⟨j 0, j 1, eq_ix2 j⟩
  have hp := p.isLt
  have hq := q.isLt
  have hr : win0_4.index t (0 : Fin 2) * 1024 + p.val < 8192 := by omega
  have hs : win0_4.index t (1 : Fin 2) * 1024 + q.val < 8192 := by omega
  show k0_pay1 (F := Ideal) (iblk m c 0 t) (iblk m c 1 t) (iblk m c 2 t) (iblk m c 3 t) (ix2 p q)
    = G (feat m c) (((cfg0.win 4).blk t).view.emb (ix2 p q))
  have hemb : ((cfg0.win 4).blk t).view.emb (ix2 p q)
      = ix2 (⟨win0_4.index t (0 : Fin 2) * 1024 + p.val, hr⟩ : Fin 8192) (⟨win0_4.index t (1 : Fin 2) * 1024 + q.val, hs⟩ : Fin 8192) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega
  rw [hemb]
  refine block_eq (feat m c) (iblk m c 0 t) (iblk m c 1 t) (iblk m c 2 t) (iblk m c 3 t)
    (win0_4.index t (0 : Fin 2) * 1024) (win0_4.index t (1 : Fin 2) * 1024) p q hr hs ?_ ?_ ?_ ?_
  · intro k
    have hk := k.isLt
    show V m c main_v0 (((cfg0.win 0).blk t).view.emb (ix2 p k)) = _
    rw [v0_apply]
    refine congrArg (feat m c) ?_
    funext a; apply Fin.ext
    match a with
    | ⟨0, _⟩ => show win0_0.index t (0 : Fin 2) * 1024 + 1 * p.val = win0_4.index t (0 : Fin 2) * 1024 + p.val; omega
    | ⟨1, _⟩ => show win0_0.index t (1 : Fin 2) * 128 + 1 * k.val = k.val; omega
  · intro k
    have hk := k.isLt
    show V m c main_v0 (((cfg0.win 1).blk t).view.emb (ix2 q k)) = _
    rw [v0_apply]
    refine congrArg (feat m c) ?_
    funext a; apply Fin.ext
    match a with
    | ⟨0, _⟩ => show win0_1.index t (0 : Fin 2) * 1024 + 1 * q.val = win0_4.index t (1 : Fin 2) * 1024 + q.val; omega
    | ⟨1, _⟩ => show win0_1.index t (1 : Fin 2) * 128 + 1 * k.val = k.val; omega
  · show V m c main_v3 (((cfg0.win 2).blk t).view.emb (ix2 p 0)) = _
    have h2 : ((cfg0.win 2).blk t).view.emb (ix2 p 0) = ix2 (⟨win0_4.index t (0 : Fin 2) * 1024 + p.val, hr⟩ : Fin 8192) (0 : Fin 1) := by
      funext a; apply Fin.ext
      match a with
      | ⟨0, _⟩ => show win0_2.index t (0 : Fin 2) * 1024 + 1 * p.val = win0_4.index t (0 : Fin 2) * 1024 + p.val; omega
      | ⟨1, _⟩ => show win0_2.index t (1 : Fin 2) * 1 + 1 * 0 = 0; omega
    rw [h2]
    exact v3_apply m c _
  · show V m c main_v4 (((cfg0.win 3).blk t).view.emb (ix2 0 q)) = _
    have h3 : ((cfg0.win 3).blk t).view.emb (ix2 0 q) = ix2 (0 : Fin 1) (⟨win0_4.index t (1 : Fin 2) * 1024 + q.val, hs⟩ : Fin 8192) := by
      funext a; apply Fin.ext
      match a with
      | ⟨0, _⟩ => show win0_3.index t (0 : Fin 2) * 1 + 1 * 0 = 0; omega
      | ⟨1, _⟩ => show win0_3.index t (1 : Fin 2) * 1024 + 1 * q.val = win0_4.index t (1 : Fin 2) * 1024 + q.val; omega
    rw [h3]
    exact v4_apply m c _

/-- An index is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5).slice (win0_4.rect t)).set ↔ _
  rw [View.set_slice_whole, Rect.mem_set_unit]
  exact Iff.rfl

/-- The 64 blocks cover the result: row r lies in row block r / 1024, column s in column block s / 1024. -/
theorem covered (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after all write-backs is G of the features. -/
theorem final (c : Dev nD) : (dats m 0 c).arrAt 4 cfg0.N = G (feat m c) :=
  (dats m 0 c).arrAt_eq_of_cover 4 (G (feat m c)) (fun t _ => flushed_eq m c t) covered

/-- The kernel's run: the result at G of the features, the features unchanged. -/
theorem run : θ_run defs (onTc (τ := τ) (main (F := Ideal))) ⟨m, fun _ => 0, ρ⟩ fun r => ∀ c : Dev nD,
      r.2.mem ((c : Thread nD τ).loc main_v5) = G (feat m c)
      ∧ r.2.mem ((c : Thread nD τ).loc main_arg0) = m ((c : Thread nD τ).loc main_arg0) :=
  (θ_run defs _ _).mono (fun r h c => ⟨((h c).1 4).trans (final m c),
      ((h c).2 main_arg0 (Pipeline.mem_restRefs_of main_arg0 rfl (by decide))).trans (V_main_arg0 m c)⟩)
    (run_main m ρ)

end Cert.Sim.Ker

end
-- ==== Proof.RefValue.lean ====
/-
  The reference computes G: stage by stage, its result at (r, s) is the negation of the square root of the
  clamped ‖f_r‖² + ‖f_s‖² − 2·Σ_k f_rk·(fᵀ)_ks, and (fᵀ)_ks = f_sk.
-/
import proofs.«104631_j32658931319006_1_alg».proof.Proof.Gen.ReferenceIdeal.Read
import proofs.«104631_j32658931319006_1_alg».proof.Proof.Spec

noncomputable section

namespace Cert.Sim.Ref

open Cert.ReferenceIdeal Cert.ReferenceIdeal.Gen Cert.ReferenceIdeal.Read Idealize.ShloMosaic Idealize.ShloMosaic.ValueIdx Cert.Sim

/-- Row r's k-th entry, through the two broadcasts of the row sums' column form. -/
theorem idx_col (i : S8192x8192.Idx) (k : Fin 128) :
    idx_main_v1 (idx_main_v2 (idx_main_v4 i)) k = ix2 (i 0) k :=
  funext fun a => Fin.ext (by match a with | ⟨0, _⟩ => rfl | ⟨1, _⟩ => rfl)

/-- Row s's k-th entry, through the two broadcasts of the row sums' row form. -/
theorem idx_row (i : S8192x8192.Idx) (k : Fin 128) :
    idx_main_v1 (idx_main_v3 (idx_main_v5 i)) k = ix2 (i 1) k :=
  funext fun a => Fin.ext (by match a with | ⟨0, _⟩ => rfl | ⟨1, _⟩ => rfl)

/-- The product's left factor is row r's k-th entry. -/
theorem idx_lhs (i : S8192x8192.Idx) (k : Fin 128) : lidx_main_v8 i k = ix2 (i 0) k :=
  funext fun a => Fin.ext (by match a with | ⟨0, _⟩ => rfl | ⟨1, _⟩ => rfl)

/-- The product's right factor, through the transpose, is row s's k-th entry. -/
theorem idx_rhs (i : S8192x8192.Idx) (k : Fin 128) : idx_main_v7 (ridx_main_v8 i k) = ix2 (i 1) k :=
  funext fun a => Fin.ext (by match a with | ⟨0, _⟩ => rfl | ⟨1, _⟩ => rfl)

/-- The reference's last stage is G of the argument. -/
theorem ref_eq_G (f : (⟨S8192x128, .f32⟩ : BufTy).Contents (Elt Ideal)) : val_main_v15 (F := Ideal) f = G f := by
  funext i
  rw [val_main_v15_apply, val_main_v14_apply, val_main_v13_apply, val_main_v11_apply, val_main_v6_apply, val_main_v10_apply,
    val_main_v4_apply, val_main_v2_apply, val_main_v1_apply, val_main_v5_apply, val_main_v3_apply, val_main_v1_apply,
    val_main_v8_apply, val_main_v9_apply, val_main_cst_0_apply, val_main_v12_apply, val_main_cst_1_apply, val_main_cst_apply]
  simp only [val_main_v0_apply, val_main_v7_apply, idx_col, idx_row, idx_lhs, idx_rhs,
    Ideal.hostNegf_def, Ideal.negf_def, Ideal.hostUnary_sqrt_def, Ideal.maximumf_def, Ideal.subf_def, Ideal.addf_def, Ideal.mulf_def,
    Ideal.ofBits_def]
  rfl

end Cert.Sim.Ref

end
-- ==== Proof.lean ====
/-
  The similarity kernel against its reference, over the extended reals.

  For features f : [8192, 128] both programs compute, at (r, s),
      −sqrt(max(‖f_r‖² + ‖f_s‖² − 2·⟨f_r, f_s⟩, 0)).
  The kernel's program casts the features to bf16 (the identity on the extended reals), sums the squares of each
  row on the host, and runs a grid of 8 × 8 points, each computing one 1024 × 1024 block from two row blocks of the
  features (read through two windows on ONE array, each at half the full share) and the matching squared norms:
  a product into a zero block (a plain sum at the ideal instance), a clamp at zero, a root, and zero minus the root.
  The reference does the same with one whole product against the transpose and a negation; 0 − x = −x on the
  extended reals, with no appeal to finiteness.

  The three frames: each kernel program's run is the launch of its one region over the body's triple at a generic
  point; the reference's is its straight-line run. The idealization rewrote nothing, so `preserves` is trivial.
-/
import proofs.«104631_j32658931319006_1_alg».proof.Defs
import proofs.«104631_j32658931319006_1_alg».proof.Proof.Gen.Kernel
import proofs.«104631_j32658931319006_1_alg».proof.Proof.Gen.KernelIdeal
import proofs.«104631_j32658931319006_1_alg».proof.Proof.Gen.ReferenceIdeal
import proofs.«104631_j32658931319006_1_alg».proof.Proof.Gen.Pre_finite_inputs
import proofs.«104631_j32658931319006_1_alg».proof.Proof.Gen.ReferenceIdeal.Run
import proofs.«104631_j32658931319006_1_alg».proof.Proof.Gen.ReferenceIdeal.Read
import proofs.«104631_j32658931319006_1_alg».proof.Proof.RunBits
import proofs.«104631_j32658931319006_1_alg».proof.Proof.KFinal
import proofs.«104631_j32658931319006_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves the features as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the features both runs end with the result at G of the features. -/
theorem algebraic : Cert.algebraic_KernelIdeal_ReferenceIdeal := by
  intro m ρ m' ρ' _ hagree
  refine ⟨fun c => Cert.Sim.G (m ((c.tc : Thread Cert.KernelIdeal.nD Cert.KernelIdeal.τ).loc Cert.KernelIdeal.main_arg0)), Cert.Sim.Ker.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v15_eq, Cert.Sim.Ref.ref_eq_G, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
